-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg4 : FVec F S128x128 .f32) (main_arg5 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg4
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  main_v28

def fn {F : FTy → Type} [FloatOps F] (main_arg0 : FVec F S10000x128 .f32) (main_arg1 : FVec F S10000x10000 .f32) (main_arg2 : FVec F S128x128 .f32) (main_arg3 : FVec F S128 .f32) (main_arg4 : FVec F S128x128 .f32) (main_arg5 : FVec F S128 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_v13 main_v16
-- ==== Kernel.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S1x128 : Shape := ⟨2, ![1, 128]⟩
abbrev S400x10000 : Shape := ⟨2, ![400, 10000]⟩
abbrev S400x128 : Shape := ⟨2, ![400, 128]⟩

abbrev nBuf : Space → Nat
  | .hbm => 9
  | .vmem => 9
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S1x128, .f32⟩
  | .hbm, ⟨7, _⟩ => ⟨S1x128, .f32⟩
  | .hbm, ⟨8, _⟩ => ⟨S10000x128, .f32⟩
  | .local _ .vmem, ⟨0, _⟩ => ⟨S400x10000, .f32⟩
  | .local _ .vmem, ⟨1, _⟩ => ⟨S400x10000, .f32⟩
  | .local _ .vmem, ⟨2, _⟩ => ⟨S10000x128, .f32⟩
  | .local _ .vmem, ⟨3, _⟩ => ⟨S128x128, .f32⟩
  | .local _ .vmem, ⟨4, _⟩ => ⟨S128x128, .f32⟩
  | .local _ .vmem, ⟨5, _⟩ => ⟨S1x128, .f32⟩
  | .local _ .vmem, ⟨6, _⟩ => ⟨S1x128, .f32⟩
  | .local _ .vmem, ⟨7, _⟩ => ⟨S400x128, .f32⟩
  | .local _ .vmem, ⟨8, _⟩ => ⟨S400x128, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨1, ![25], ![false]⟩

def k0_off1 (i : grid0.Coords) : Fin 2 → Nat :=
  let arg0 : BitVec 32 := BitVec.ofNat 32 (i 0).val
  let c400_i32 : BitVec 32 := 400#32
  let v5 : BitVec 32 := Scalar.muli arg0 c400_i32
  let v6 : Index := Scalar.indexCast v5
  let c0_6 : Index := 0#32
  ![v6.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S400x10000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S10000x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S400x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  shapeCasts_S128_S1x128 : S128.ShapeCasts S1x128
  inb_S400x10000_S400x10000_0_0 : ∀ a, (![0, 0] : Fin 2 → Nat) a + S400x10000.size a ≤ S400x10000.size a
  h_S400x10000 : 0 < S400x10000.numel
  inb_S10000x128_S10000x128_0_0 : ∀ a, (![0, 0] : Fin 2 → Nat) a + S10000x128.size a ≤ S10000x128.size a
  h_S10000x128 : 0 < S10000x128.numel
  inb_S128x128_S128x128_0_0 : ∀ a, (![0, 0] : Fin 2 → Nat) a + S128x128.size a ≤ S128x128.size a
  h_S128x128 : 0 < S128x128.numel
  h_S400x128 : 0 < S400x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S400x128 : S1x128.Broadcasts S400x128
  inb_S400x128_S400x128_0_0 : ∀ a, (![0, 0] : Fin 2 → Nat) a + S400x128.size a ≤ S400x128.size a
  dot_S400x10000_S10000x128_S400x128_1_0_0_1_n_n_wf : DotDims.WF S400x10000 S10000x128 S400x128 [1] [0] [0] [1] [] []
  dot_S400x128_S128x128_S400x128_1_1_0_0_n_n_wf : DotDims.WF S400x128 S128x128 S400x128 [1] [1] [0] [0] [] []
  hrank0 : 0 < grid0.rank
  k0_off1_inb : ∀ i : grid0.Coords, ∀ a, (k0_off1 i) a + S400x128.size a ≤ S10000x128.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S400x10000.size a ≤ S10000x10000.size a
  hwx0_0 : ∀ i : grid0.Coords, EltTy.bits .f32 = 32 ∨ (Rect.block (s := S10000x10000) S400x10000.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S10000x128.size a ≤ S10000x128.size a
  hwx0_1 : ∀ i : grid0.Coords, EltTy.bits .f32 = 32 ∨ (Rect.block (s := S10000x128) S10000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S400x128.size a ≤ S10000x128.size a
  hwx0_6 : ∀ i : grid0.Coords, EltTy.bits .f32 = 32 ∨ (Rect.block (s := S10000x128) S400x128.size (cc0_transform_6 i) (hinb0_6 i)).WholeWords (EltTy.packing .f32)

variable [Facts₀]

def dot_S400x10000_S10000x128_S400x128_1_0_0_1_n_n : DotDims S400x10000 S10000x128 S400x128 where
  lhsContracting := [1]
  rhsContracting := [0]
  lhsNonContracting := [0]
  rhsNonContracting := [1]
  lhsBatch := []
  rhsBatch := []
  wf := dot_S400x10000_S10000x128_S400x128_1_0_0_1_n_n_wf
def dot_S400x128_S128x128_S400x128_1_1_0_0_n_n : DotDims S400x128 S128x128 S400x128 where
  lhsContracting := [1]
  rhsContracting := [1]
  lhsNonContracting := [0]
  rhsNonContracting := [0]
  lhsBatch := []
  rhsBatch := []
  wf := dot_S400x128_S128x128_S400x128_1_1_0_0_n_n_wf

abbrev win0_0 : Pipeline.Window sig grid0 :=
  Pipeline.Window.ofSpec (Memref.whole main_arg1) S400x10000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S10000x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v0) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v1) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v2) S400x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S1x128 : Shape := ⟨2, ![1, 128]⟩
abbrev S_ : Shape := ⟨0, ![]⟩

abbrev nBuf : Space → Nat
  | .hbm => 26
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S10000x128, .f32⟩
  | .hbm, ⟨8, _⟩ => ⟨S1x128, .f32⟩
  | .hbm, ⟨9, _⟩ => ⟨S10000x128, .f32⟩
  | .hbm, ⟨10, _⟩ => ⟨S10000x128, .f32⟩
  | .hbm, ⟨11, _⟩ => ⟨S10000x128, .f32⟩
  | .hbm, ⟨12, _⟩ => ⟨S128x128, .f32⟩
  | .hbm, ⟨13, _⟩ => ⟨S10000x128, .f32⟩
  | .hbm, ⟨14, _⟩ => ⟨S1x128, .f32⟩
  | .hbm, ⟨15, _⟩ => ⟨S10000x128, .f32⟩
  | .hbm, ⟨16, _⟩ => ⟨S10000x128, .f32⟩
  | .hbm, ⟨17, _⟩ => ⟨S10000x128, .f32⟩
  | .hbm, ⟨18, _⟩ => ⟨S_, .f32⟩
  | .hbm, ⟨19, _⟩ => ⟨S_, .f32⟩
  | .hbm, ⟨20, _⟩ => ⟨S10000x128, .f32⟩
  | .hbm, ⟨21, _⟩ => ⟨S10000x128, .i1⟩
  | .hbm, ⟨22, _⟩ => ⟨S_, .f32⟩
  | .hbm, ⟨23, _⟩ => ⟨S10000x128, .f32⟩
  | .hbm, ⟨24, _⟩ => ⟨S10000x128, .f32⟩
  | .hbm, ⟨25, _⟩ => ⟨S10000x128, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst : Ref sig .tc := ⟨.hbm, 18, rfl⟩
abbrev main_call0_cst : Ref sig .tc := ⟨.hbm, 19, rfl⟩
abbrev main_call0_v0 : Ref sig .tc := ⟨.hbm, 20, rfl⟩
abbrev main_call0_v1 : Ref sig .tc := ⟨.hbm, 21, rfl⟩
abbrev main_call0_v2 : Ref sig .tc := ⟨.hbm, 22, rfl⟩
abbrev main_call0_v3 : Ref sig .tc := ⟨.hbm, 23, rfl⟩
abbrev main_call0_v4 : Ref sig .tc := ⟨.hbm, 24, rfl⟩
abbrev main_v12 : Ref sig .tc := ⟨.hbm, 25, rfl⟩

abbrev nD : Nat := 1
abbrev τ : Topo := Topo.v7x

variable {F : FTy → Type} [FloatOps F]

class Facts₀ : Prop where
  transposes_S128x128_S128x128_1_0 : S128x128.Transposes [1, 0] S128x128
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  bcast_S_S10000x128 : S_.BroadcastsInDim S10000x128 (![] : Fin 0 → Fin S10000x128.rank)
  dot_S10000x128_S128x128_S10000x128_1_0_0_1_n_n_wf : DotDims.WF S10000x128 S128x128 S10000x128 [1] [0] [0] [1] [] []
  dot_S10000x10000_S10000x128_S10000x128_1_0_0_1_n_n_wf : DotDims.WF S10000x10000 S10000x128 S10000x128 [1] [0] [0] [1] [] []

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S10000x10000_S10000x128_S10000x128_1_0_0_1_n_n : DotDims S10000x10000 S10000x128 S10000x128 where
  lhsContracting := [1]
  rhsContracting := [0]
  lhsNonContracting := [0]
  rhsNonContracting := [1]
  lhsBatch := []
  rhsBatch := []
  wf := dot_S10000x10000_S10000x128_S10000x128_1_0_0_1_n_n_wf

class Facts : Prop extends Facts₀ where

variable [Facts]
-- ==== Proof.LibDotRead.lean ====
/- A matrix product's contraction sum re-indexed by the contracted coordinate: for the product of an m x k by a
   k x n matrix, and for the product of the transpose of a k x m matrix by a k x n matrix. -/
import Idealize.ShloMosaic.Lib.ValueIdx
import Idealize.ShloMosaic.PureOps.Ideal.Laws

noncomputable section

open scoped BigOperators

namespace Cert.DotRead

open Idealize.ShloMosaic Idealize.ShloMosaic.ValueIdx

/-- Rows by columns: the contraction at (a, b) runs over A (a, c) * B (c, b). -/
theorem sum_contr_plain {m k n : Nat}
    (w : DotDims.WF ⟨2, ![m, k]⟩ ⟨2, ![k, n]⟩ ⟨2, ![m, n]⟩ [1] [0] [0] [1] [] [])
    (A : (⟨2, ![m, k]⟩ : Shape).Idx → EReal) (B : (⟨2, ![k, n]⟩ : Shape).Idx → EReal) (a : Fin m) (b : Fin n) :
    ∑ q : (⟨[1], [0], [0], [1], [], [], w⟩ : DotDims ⟨2, ![m, k]⟩ ⟨2, ![k, n]⟩ ⟨2, ![m, n]⟩).contr.Idx,
        A ((⟨[1], [0], [0], [1], [], [], w⟩ : DotDims ⟨2, ![m, k]⟩ ⟨2, ![k, n]⟩ ⟨2, ![m, n]⟩).lhsIdx (ix2 a b) q)
          * B ((⟨[1], [0], [0], [1], [], [], w⟩ : DotDims ⟨2, ![m, k]⟩ ⟨2, ![k, n]⟩ ⟨2, ![m, n]⟩).rhsIdx (ix2 a b) q)
      = ∑ c : Fin k, A (ix2 a c) * B (ix2 c b) := by
  rw [← Equiv.sum_comp (contrEquiv1 (⟨[1], [0], [0], [1], [], [], w⟩ : DotDims ⟨2, ![m, k]⟩ ⟨2, ![k, n]⟩ ⟨2, ![m, n]⟩) k rfl rfl).symm]
  refine Finset.sum_congr rfl fun c _ => ?_
  have c2 := contrEquiv1_symm_val (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

/-- The left operand transposed: the contraction at (a, b) runs over A (c, a) * B (c, b). -/
theorem sum_contr_lhsT {m k n : Nat}
    (w : DotDims.WF ⟨2, ![k, m]⟩ ⟨2, ![k, n]⟩ ⟨2, ![m, n]⟩ [0] [0] [1] [1] [] [])
    (A : (⟨2, ![k, m]⟩ : Shape).Idx → EReal) (B : (⟨2, ![k, n]⟩ : Shape).Idx → EReal) (a : Fin m) (b : Fin n) :
    ∑ q : (⟨[0], [0], [1], [1], [], [], w⟩ : DotDims ⟨2, ![k, m]⟩ ⟨2, ![k, n]⟩ ⟨2, ![m, n]⟩).contr.Idx,
        A ((⟨[0], [0], [1], [1], [], [], w⟩ : DotDims ⟨2, ![k, m]⟩ ⟨2, ![k, n]⟩ ⟨2, ![m, n]⟩).lhsIdx (ix2 a b) q)
          * B ((⟨[0], [0], [1], [1], [], [], w⟩ : DotDims ⟨2, ![k, m]⟩ ⟨2, ![k, n]⟩ ⟨2, ![m, n]⟩).rhsIdx (ix2 a b) q)
      = ∑ c : Fin k, A (ix2 c a) * B (ix2 c b) := by
  rw [← Equiv.sum_comp (contrEquiv1 (⟨[0], [0], [1], [1], [], [], w⟩ : DotDims ⟨2, ![k, m]⟩ ⟨2, ![k, n]⟩ ⟨2, ![m, n]⟩) k rfl rfl).symm]
  refine Finset.sum_congr rfl fun c _ => ?_
  have c2 := contrEquiv1_symm_val (⟨[0], [0], [1], [1], [], [], w⟩ : DotDims ⟨2, ![k, m]⟩ ⟨2, ![k, n]⟩ ⟨2, ![m, n]⟩) k rfl rfl c
  have l2 : (⟨[0], [0], [1], [1], [], [], w⟩ : DotDims ⟨2, ![k, m]⟩ ⟨2, ![k, n]⟩ ⟨2, ![m, n]⟩).lhsIdx (ix2 a b)
      ((contrEquiv1 _ k rfl rfl).symm c) = ix2 c a := by
    funext ax; apply Fin.ext
    match ax with
    | ⟨0, _⟩ => simp [DotDims.lhsIdx]; exact c2
    | ⟨1, _⟩ => simp [DotDims.lhsIdx]; rfl
  have r2 : (⟨[0], [0], [1], [1], [], [], w⟩ : DotDims ⟨2, ![k, m]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

end Cert.DotRead

end
-- ==== Proof.LibMatProd.lean ====
/- The textbook product of an m x k by a k x n matrix over the extended reals, (A B)(a, b) = Σ_c A(a, c) · B(c, b), and
   the two operations that compute it exactly there: the host's dot_general over a rows-by-columns dimension record,
   and a matmul with that record into a zero accumulator. Also: a row block of the product is the product of the
   row block. -/
import Idealize.ShloMosaic.Lib.ValueIdx
import Idealize.ShloMosaic.PureOps.Ideal.Laws
import proofs.«165966_g25280177504545_cont_sun_m_587_10_alg».proof.Proof.LibDotRead

noncomputable section

open scoped BigOperators

namespace Cert.MatProd

open Idealize.ShloMosaic Idealize.ShloMosaic.ValueIdx

/-- The matrix product, entry by entry. -/
def matProd {m k n : Nat} (A : (⟨2, ![m, k]⟩ : Shape).Idx → EReal) (B : (⟨2, ![k, n]⟩ : Shape).Idx → EReal) :
    (⟨2, ![m, n]⟩ : Shape).Idx → EReal :=
  fun i => ∑ c : Fin k, A (ix2 (i 0) c) * B (ix2 c (i 1))

theorem matProd_ix2 {m k n : Nat} (A : (⟨2, ![m, k]⟩ : Shape).Idx → EReal) (B : (⟨2, ![k, n]⟩ : Shape).Idx → EReal)
    (a : Fin m) (b : Fin n) : matProd A B (ix2 a b) = ∑ c : Fin k, A (ix2 a c) * B (ix2 c b) := rfl

/-- The host's dot_general over a rows-by-columns record is the matrix product: its contraction sum, with no
    accumulator, re-indexed by the contracted coordinate. -/
theorem hostDot_eq {m k n : Nat}
    (w : DotDims.WF ⟨2, ![m, k]⟩ ⟨2, ![k, n]⟩ ⟨2, ![m, n]⟩ [1] [0] [0] [1] [] [])
    (prec : Option ContractPrecision)
    (A : FVec Ideal ⟨2, ![m, k]⟩ .f32) (B : FVec Ideal ⟨2, ![k, n]⟩ .f32) :
    Host.dotGeneral (⟨[1], [0], [0], [1], [], [], w⟩ : DotDims ⟨2, ![m, k]⟩ ⟨2, ![k, n]⟩ ⟨2, ![m, n]⟩) prec A B = matProd A B := by
  funext i
  obtain ⟨a, b, rfl⟩ : ∃ (a : Fin m) (b : Fin n), i = ix2 a b := ⟨i 0, i 1, eq_ix2 i⟩
  refine (Ideal.dotGeneral_apply _ prec _ A B (ix2 a b)).trans ?_
  exact Cert.DotRead.sum_contr_plain w A B a b

/-- A matmul over a rows-by-columns record into the zero accumulator is the matrix product: zero plus the contraction
    sum. -/
theorem matmulZero_eq {m k n : Nat}
    (w : DotDims.WF ⟨2, ![m, k]⟩ ⟨2, ![k, n]⟩ ⟨2, ![m, n]⟩ [1] [0] [0] [1] [] [])
    (prec : Option ContractPrecision)
    (A : FVec Ideal ⟨2, ![m, k]⟩ .f32) (B : FVec Ideal ⟨2, ![k, n]⟩ .f32) :
    matmul (⟨[1], [0], [0], [1], [], [], w⟩ : DotDims ⟨2, ![m, k]⟩ ⟨2, ![k, n]⟩ ⟨2, ![m, n]⟩) prec A B
      (constant (F := Ideal) ⟨2, ![m, n]⟩ .f32 0x00000000#32) = matProd A B := by
  funext i
  obtain ⟨a, b, rfl⟩ : ∃ (a : Fin m) (b : Fin n), i = ix2 a b := ⟨i 0, i 1, eq_ix2 i⟩
  refine (Ideal.matmul_constant_zero_apply _ prec A B (ix2 a b)).trans ?_
  exact Cert.DotRead.sum_contr_plain w A B a b

end Cert.MatProd

end
-- ==== Proof.LibDotReadRhsT.lean ====
/- A matrix product's contraction sum re-indexed by the contracted coordinate, for the product of an m x k matrix by
   the transpose of an n x k matrix: both operands are contracted along their second axis. -/
import Idealize.ShloMosaic.Lib.ValueIdx
import Idealize.ShloMosaic.PureOps.Ideal.Laws

noncomputable section

open scoped BigOperators

namespace Cert.DotReadRhsT

open Idealize.ShloMosaic Idealize.ShloMosaic.ValueIdx

/-- The right operand transposed: the contraction at (a, b) runs over A (a, c) * B (b, c). -/
theorem sum_contr_rhsT {m k n : Nat}
    (w : DotDims.WF ⟨2, ![m, k]⟩ ⟨2, ![n, k]⟩ ⟨2, ![m, n]⟩ [1] [1] [0] [0] [] [])
    (A : (⟨2, ![m, k]⟩ : Shape).Idx → EReal) (B : (⟨2, ![n, k]⟩ : Shape).Idx → EReal) (a : Fin m) (b : Fin n) :
    ∑ q : (⟨[1], [1], [0], [0], [], [], w⟩ : DotDims ⟨2, ![m, k]⟩ ⟨2, ![n, k]⟩ ⟨2, ![m, n]⟩).contr.Idx,
        A ((⟨[1], [1], [0], [0], [], [], w⟩ : DotDims ⟨2, ![m, k]⟩ ⟨2, ![n, k]⟩ ⟨2, ![m, n]⟩).lhsIdx (ix2 a b) q)
          * B ((⟨[1], [1], [0], [0], [], [], w⟩ : DotDims ⟨2, ![m, k]⟩ ⟨2, ![n, k]⟩ ⟨2, ![m, n]⟩).rhsIdx (ix2 a b) q)
      = ∑ c : Fin k, A (ix2 a c) * B (ix2 b c) := by
  rw [← Equiv.sum_comp (contrEquiv1 (⟨[1], [1], [0], [0], [], [], w⟩ : DotDims ⟨2, ![m, k]⟩ ⟨2, ![n, k]⟩ ⟨2, ![m, n]⟩) k rfl rfl).symm]
  refine Finset.sum_congr rfl fun c _ => ?_
  have c2 := contrEquiv1_symm_val (⟨[1], [1], [0], [0], [], [], w⟩ : DotDims ⟨2, ![m, k]⟩ ⟨2, ![n, k]⟩ ⟨2, ![m, n]⟩) k rfl rfl c
  have l2 : (⟨[1], [1], [0], [0], [], [], w⟩ : DotDims ⟨2, ![m, k]⟩ ⟨2, ![n, k]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [1], [0], [0], [], [], w⟩ : DotDims ⟨2, ![m, k]⟩ ⟨2, ![n, k]⟩ ⟨2, ![m, n]⟩).rhsIdx (ix2 a b)
      ((contrEquiv1 _ k rfl rfl).symm c) = ix2 b c := by
    funext ax; apply Fin.ext
    match ax with
    | ⟨0, _⟩ => simp [DotDims.rhsIdx]; rfl
    | ⟨1, _⟩ => simp [DotDims.rhsIdx]; exact c2
  rw [l2, r2]

end Cert.DotReadRhsT

end
-- ==== Proof.LayerSpec.lean ====
/- The layer's value, entry by entry, over the extended reals.

   For an entity matrix E (10000 x 128), an adjacency matrix A (10000 x 10000), two weight matrices Ws, Wn (128 x 128)
   and two bias rows bs, bn (128), the layer's output at row r and column q is the leaky rectifier of

       x(r, q) = (Σ_c E(r, c) · Ws(q, c)  +  Σ_c (Σ_l A(r, l) · E(l, c)) · Wn(q, c))  +  (bs(q) + bn(q)),

   the self transform E · Wsᵀ, the neighbour transform (A · E) · Wnᵀ and the two biases. The rectifier keeps x where
   x ≥ 0 and scales it by a fixed single-precision word elsewhere.

   A block of 400 consecutive rows of that output depends on the same 400 rows of A and of E and on nothing else of
   A: the block function below is the output restricted to those rows. -/
import Idealize.ShloMosaic.Lib.ValueIdx
import Idealize.ShloMosaic.PureOps.Ideal.Laws
import proofs.«165966_g25280177504545_cont_sun_m_587_10_alg».proof.Proof.LibMatProd
import proofs.«165966_g25280177504545_cont_sun_m_587_10_alg».proof.Proof.LibDotReadRhsT

noncomputable section

open scoped BigOperators

namespace Cert.Layer

open Idealize.ShloMosaic Idealize.ShloMosaic.ValueIdx Cert.MatProd

/-- A matrix of extended reals. -/
abbrev Mat (m n : Nat) : Type := (⟨2, ![m, n]⟩ : Shape).Idx → EReal
/-- A row of extended reals. -/
abbrev Row (n : Nat) : Type := (⟨1, ![n]⟩ : Shape).Idx → EReal

/-- The product with the transpose of the right factor: (A · Bᵀ)(a, b) = Σ_c A(a, c) · B(b, c). -/
def matProdT {m k n : Nat} (A : Mat m k) (B : Mat n k) : Mat m n :=
  fun i => ∑ c : Fin k, A (ix2 (i 0) c) * B (ix2 (i 1) c)

theorem matProdT_ix2 {m k n : Nat} (A : Mat m k) (B : Mat n k) (a : Fin m) (b : Fin n) :
    matProdT A B (ix2 a b) = ∑ c : Fin k, A (ix2 a c) * B (ix2 b c) := rfl

/-- A matrix unit's product into the zero accumulator, both operands contracted along their second axis, is the
    product with the transposed right factor: zero plus the contraction sum, re-indexed by the contracted coordinate. -/
theorem matmulZero_rhsT_eq {m k n : Nat}
    (w : DotDims.WF ⟨2, ![m, k]⟩ ⟨2, ![n, k]⟩ ⟨2, ![m, n]⟩ [1] [1] [0] [0] [] [])
    (prec : Option ContractPrecision)
    (A : FVec Ideal ⟨2, ![m, k]⟩ .f32) (B : FVec Ideal ⟨2, ![n, k]⟩ .f32) :
    matmul (⟨[1], [1], [0], [0], [], [], w⟩ : DotDims ⟨2, ![m, k]⟩ ⟨2, ![n, k]⟩ ⟨2, ![m, n]⟩) prec A B
      (constant (F := Ideal) ⟨2, ![m, n]⟩ .f32 0x00000000#32) = matProdT A B := by
  funext i
  obtain ⟨a, b, rfl⟩ : ∃ (a : Fin m) (b : Fin n), i = ix2 a b := ⟨i 0, i 1, eq_ix2 i⟩
  refine (Ideal.matmul_constant_zero_apply _ prec A B (ix2 a b)).trans ?_
  exact Cert.DotReadRhsT.sum_contr_rhsT w A B a b

/-- The leaky rectifier of one extended real: x itself where 0 ≤ x, the slope word's value times x elsewhere. -/
def lrelu (x : EReal) : EReal :=
  Scalar.select (Ideal.cmp .oge x (Ideal.ofBits .f32 0x00000000#32)) x (Ideal.ofBits .f32 0x3C23D70A#32 * x)

/-- The sum the rectifier is applied to, in the grouping (self + neighbour) + (bias + bias). -/
def preAct (selfT neighT : EReal) (b1 b2 : EReal) : EReal := (selfT + neighT) + (b1 + b2)

/-- Grouped the other way, (self + bias) + (neighbour + bias), it is the same extended real: addition there is
    commutative and associative, infinities included. -/
theorem preAct_regroup (selfT neighT b1 b2 : EReal) : (selfT + b1) + (neighT + b2) = preAct selfT neighT b1 b2 :=
  add_add_add_comm selfT b1 neighT b2

/-- THE LAYER: the whole output array as one function of the six arguments. -/
def G (E : Mat 10000 128) (A : Mat 10000 10000) (Ws : Mat 128 128) (bs : Row 128) (Wn : Mat 128 128) (bn : Row 128) :
    Mat 10000 128 :=
  fun i => lrelu (preAct (matProdT E Ws i) (matProdT (matProd A E) Wn i) (bs (ix1 (i 1))) (bn (ix1 (i 1))))

/-- One block of 400 output rows, from the matching 400 rows of A and of E, all of E, the weights, and the biases laid
    out as 1 x 128 rows. -/
def blockOut (Ab : Mat 400 10000) (E : Mat 10000 128) (Eb : Mat 400 128) (Ws Wn : Mat 128 128) (bs1 bn1 : Mat 1 128) :
    Mat 400 128 :=
  fun i => lrelu (preAct (matProdT Eb Ws i) (matProdT (matProd Ab E) Wn i) (bs1 (ix2 0 (i 1))) (bn1 (ix2 0 (i 1))))

/-- Row p of block t is row 400 · t + p of the array. -/
def rowOf (t : Fin 25) (p : Fin 400) : Fin 10000 := ⟨400 * t.val + p.val, by have := t.isLt; have := p.isLt; omega⟩

/-- A block computed from rows 400 · t … 400 · t + 399 of A and of E is the layer's output on those rows. -/
theorem blockOut_eq_G (t : Fin 25) (E : Mat 10000 128) (A : Mat 10000 10000) (Ws Wn : Mat 128 128) (bs bn : Row 128)
    (Ab : Mat 400 10000) (Eb : Mat 400 128) (bs1 bn1 : Mat 1 128)
    (hA : ∀ (p : Fin 400) (l : Fin 10000), Ab (ix2 p l) = A (ix2 (rowOf t p) l))
    (hE : ∀ (p : Fin 400) (c : Fin 128), Eb (ix2 p c) = E (ix2 (rowOf t p) c))
    (hbs : ∀ q : Fin 128, bs1 (ix2 0 q) = bs (ix1 q)) (hbn : ∀ q : Fin 128, bn1 (ix2 0 q) = bn (ix1 q))
    (p : Fin 400) (q : Fin 128) :
    blockOut Ab E Eb Ws Wn bs1 bn1 (ix2 p q) = G E A Ws bs Wn bn (ix2 (rowOf t p) q) := by
  show lrelu (preAct (∑ c : Fin 128, Eb (ix2 p c) * Ws (ix2 q c))
      (∑ c : Fin 128, (∑ l : Fin 10000, Ab (ix2 p l) * E (ix2 l c)) * Wn (ix2 q c)) (bs1 (ix2 0 q)) (bn1 (ix2 0 q)))
    = lrelu (preAct (∑ c : Fin 128, E (ix2 (rowOf t p) c) * Ws (ix2 q c))
      (∑ c : Fin 128, (∑ l : Fin 10000, A (ix2 (rowOf t p) l) * E (ix2 l c)) * Wn (ix2 q c)) (bs (ix1 q)) (bn (ix1 q)))
  simp only [hA, hE, hbs, hbn]

end Cert.Layer

end
-- ==== Proof.KernelPayload.lean ====
/- The kernel body's one stored value, at the extended reals, is the block function of the layer.

   The body multiplies its 400 x 10000 block of A by all of E into a zero accumulator (the matrix product), multiplies
   that by the neighbour weights contracting both along their second axis (the product with the transpose), does the same
   with its 400 rows of E and the self weights, adds the two, adds the sum of the two bias rows repeated down the 400
   rows, and applies the rectifier: entry by entry that is `blockOut`. -/
import proofs.«165966_g25280177504545_cont_sun_m_587_10_alg».proof.Proof.Gen.KernelIdeal.Skeleton
import proofs.«165966_g25280177504545_cont_sun_m_587_10_alg».proof.Proof.LayerSpec
import Idealize.ShloMosaic.Lib.Pipeline.Value
import Idealize.ShloMosaic.Lib.ValueLayout

noncomputable section

open scoped BigOperators

namespace Cert.KernelIdeal.Payload

open Cert.KernelIdeal Cert.KernelIdeal.Gen
open Idealize.ShloMosaic Idealize.ShloMosaic.ValueIdx Cert.Layer Cert.MatProd

/-- The sum of two 1 x 128 rows, repeated down 400 rows, reads the sum of their q-th entries at (p, q). -/
theorem bias_rows_apply (b1 b2 : FVec Ideal S1x128 .f32) (p : Fin 400) (q : Fin 128) :
    broadcastTo S400x128 (addf (shapeCast S1x128 b1 shapeCasts_S1x128_S1x128) (shapeCast S1x128 b2 shapeCasts_S1x128_S1x128))
        broadcasts_S1x128_S400x128 (ix2 p q)
      = b1 (ix2 0 q) + b2 (ix2 0 q) := by
  rw [shapeCast_self, shapeCast_self]
  exact broadcastTo_apply _ _ (ix2 p q) (ix2 (0 : Fin 1) q) (fun a => match a with | ⟨0, _⟩ => rfl | ⟨1, _⟩ => rfl)

/-- THE PAYLOAD IS THE BLOCK FUNCTION, for any loaded values: the block of A, all of E, the neighbour weights, the rows
    of E, the self weights, and the two bias rows. -/
theorem pay_eq (v0 : Vec Ideal S400x10000 .f32) (v1 : Vec Ideal S10000x128 .f32) (v3 : Vec Ideal S128x128 .f32)
    (v7 : Vec Ideal S400x128 .f32) (v8 : Vec Ideal S128x128 .f32) (v11 v13 : Vec Ideal S1x128 .f32) :
    k0_pay1 (F := Ideal) v0 v1 v3 v7 v8 v11 v13 = blockOut v0 v1 v7 v8 v3 v11 v13 := by
  have e2 : matmul dot_S400x10000_S10000x128_S400x128_1_0_0_1_n_n none v0 v1 (constant (F := Ideal) S400x128 .f32 0x00000000#32)
      = matProd v0 v1 := matmulZero_eq dot_S400x10000_S10000x128_S400x128_1_0_0_1_n_n.wf none v0 v1
  have e4 : matmul dot_S400x128_S128x128_S400x128_1_1_0_0_n_n none (matProd v0 v1 : FVec Ideal S400x128 .f32) v3
      (constant (F := Ideal) S400x128 .f32 0x00000000#32) = matProdT (matProd v0 v1) v3 :=
    matmulZero_rhsT_eq dot_S400x128_S128x128_S400x128_1_1_0_0_n_n.wf none _ v3
  have e9 : matmul dot_S400x128_S128x128_S400x128_1_1_0_0_n_n none v7 v8 (constant (F := Ideal) S400x128 .f32 0x00000000#32)
      = matProdT v7 v8 := matmulZero_rhsT_eq dot_S400x128_S128x128_S400x128_1_1_0_0_n_n.wf none v7 v8
  funext i
  obtain ⟨p, q, rfl⟩ : ∃ (p : Fin 400) (q : Fin 128), i = ix2 p q := ⟨i 0, i 1, eq_ix2 i⟩
  unfold k0_pay1
  rw [e2, e4, e9, select_apply, cmpf_apply, mulf_apply, addf_apply, addf_apply, bias_rows_apply]
  rfl

end Cert.KernelIdeal.Payload

end
-- ==== Proof.KernelBlocks.lean ====
/- The kernel's result array is the layer function of its six arguments.

   The grid has 25 points; point t handles rows 400 · t … 400 · t + 399. At point t the body sees the block of those rows
   of A, all of E (from which it also reads those same rows), both weight matrices and the two biases as 1 x 128 rows,
   and stores one 400 x 128 block: the block function of LayerSpec applied to what it loaded, which is the layer's output
   on those rows. Point t's block is written back to rows 400 · t … of the result and to no others, and every row r lies
   in the block of point r / 400, so after the run the whole result array is the layer function. -/
import proofs.«165966_g25280177504545_cont_sun_m_587_10_alg».proof.Proof.Gen.KernelIdeal.Value
import proofs.«165966_g25280177504545_cont_sun_m_587_10_alg».proof.Proof.KernelPayload
import Idealize.ShloMosaic.Lib.Pipeline.Value
import Idealize.ShloMosaic.Lib.StableHlo.Run
import Idealize.ShloMosaic.Lib.Tactic

set_option maxRecDepth 16384

noncomputable section

namespace Cert.KernelIdeal.Blocks

open Cert.KernelIdeal Cert.KernelIdeal.Gen Cert.KernelIdeal.Value
open Idealize.ShloMosaic Idealize.ShloMosaic.TcCoe Idealize.SL.Sem Idealize.ShloMosaic.ValueIdx
open Idealize.ShloMosaic.Tactic Idealize.ShloMosaic.StableHlo
open Idealize.ShloMosaic.Pipeline (Dat)
open Cert.Layer

theorem hz : (![0, 0] : Fin 2 → Nat) = fun _ => 0 := funext fun a => by fin_cases a <;> rfl

/-! ## What one run of the body leaves in the output's staging buffer -/

section Piece

variable {F : FTy → Type} [FloatOps F]

/-- The 400 rows of E the body loads at grid coordinate i, out of its whole copy of E: rows 400 · i onwards, all 128
    columns. -/
abbrev eRows (i : grid0.Coords) (x1 : Vec F S10000x128 .f32) : Vec F S400x128 .f32 :=
  View.ld x1 (Rect.unit (s := S10000x128) (k0_off1 i) S400x128.size (k0_off1_inb i))

/-- The body's single store covers the whole 400 x 128 staging buffer, so what it leaves there is the stored value: the
    body's arithmetic applied to the whole loaded buffers and to the 400 rows of E. -/
theorem out_A (c : Dev nD) (i : grid0.Coords) (a1 : Memref sig .tc .vmem S400x10000 .f32) (h1 : a1.IsWhole) (a2 : Memref sig .tc .vmem S10000x128 .f32) (h2 : a2.IsWhole) (a3 : Memref sig .tc .vmem S128x128 .f32) (h3 : a3.IsWhole) (a4 : Memref sig .tc .vmem S128x128 .f32) (h4 : a4.IsWhole) (a5 : Memref sig .tc .vmem S1x128 .f32) (h5 : a5.IsWhole) (a6 : Memref sig .tc .vmem S1x128 .f32) (h6 : a6.IsWhole) (a7 : Memref sig .tc .vmem S400x128 .f32) (h7 : a7.IsWhole)
    (x0 : Vec F S400x10000 .f32) (x1 : Vec F S10000x128 .f32) (x2 : Vec F S128x128 .f32) (x3 : Vec F S128x128 .f32) (x4 : Vec F S1x128 .f32) (x5 : Vec F S1x128 .f32) :
    out0_A_6 c i a1 h1 a2 h2 a3 h3 a4 h4 a5 h5 a6 h6 a7 h7 x0 x1 x2 x3 x4 x5 = k0_pay1 x0 x1 x3 (eRows i x1) x2 x4 x5 := by
  unfold out0_A_6
  rw [View.read_writes_eq_canon _ _ _ (cover0_A_6 c i a1 h1 a2 h2 a3 h3 a4 h4 a5 h5 a6 h6 a7 h7 x0 x1 x2 x3 x4 x5)]
  unfold kernelRun0_A
  dsimp only
  sl_unfold_words
  rw [View.canon_unit_zero hz]
  simp only [View.readAt_eq_ld, h1.read_unread, h2.read_unread, h3.read_unread, h4.read_unread, h5.read_unread, h6.read_unread,
    View.ld_unit_zero (S := S400x10000) hz, View.ld_unit_zero (S := S10000x128) hz, View.ld_unit_zero (S := S128x128) hz,
    View.ld_unit_zero (S := S1x128) hz]
  rfl

end Piece

/-! ## The grid: which block each window shows at point t -/

/-- A grid point as a number below 25. -/
def pt (t : Fin cfg0.N) : Fin 25 := ⟨t.val, by have h := t.isLt; have hN : cfg0.N = 25 := N_0; omega⟩

/-- The block of A at point t is block row t, block column 0. -/
theorem idxA : ∀ t : Fin cfg0.N, win0_0.index t (0 : Fin 2) = t.val ∧ win0_0.index t (1 : Fin 2) = 0 :=
  (by decide +kernel : ∀ t : Fin grid0.N, win0_0.index t (0 : Fin 2) = t.val ∧ win0_0.index t (1 : Fin 2) = 0)
/-- E, the two weight matrices and the two bias rows are shown whole at every point: block (0, 0). -/
theorem idxE : ∀ t : Fin cfg0.N, win0_1.index t (0 : Fin 2) = 0 ∧ win0_1.index t (1 : Fin 2) = 0 :=
  (by decide +kernel : ∀ t : Fin grid0.N, win0_1.index t (0 : Fin 2) = 0 ∧ win0_1.index t (1 : Fin 2) = 0)
theorem idxWs : ∀ t : Fin cfg0.N, win0_2.index t (0 : Fin 2) = 0 ∧ win0_2.index t (1 : Fin 2) = 0 :=
  (by decide +kernel : ∀ t : Fin grid0.N, win0_2.index t (0 : Fin 2) = 0 ∧ win0_2.index t (1 : Fin 2) = 0)
theorem idxWn : ∀ t : Fin cfg0.N, win0_3.index t (0 : Fin 2) = 0 ∧ win0_3.index t (1 : Fin 2) = 0 :=
  (by decide +kernel : ∀ t : Fin grid0.N, win0_3.index t (0 : Fin 2) = 0 ∧ win0_3.index t (1 : Fin 2) = 0)
theorem idxBs : ∀ t : Fin cfg0.N, win0_4.index t (0 : Fin 2) = 0 ∧ win0_4.index t (1 : Fin 2) = 0 :=
  (by decide +kernel : ∀ t : Fin grid0.N, win0_4.index t (0 : Fin 2) = 0 ∧ win0_4.index t (1 : Fin 2) = 0)
theorem idxBn : ∀ t : Fin cfg0.N, win0_5.index t (0 : Fin 2) = 0 ∧ win0_5.index t (1 : Fin 2) = 0 :=
  (by decide +kernel : ∀ t : Fin grid0.N, win0_5.index t (0 : Fin 2) = 0 ∧ win0_5.index t (1 : Fin 2) = 0)
/-- The output block at point t is block row t, block column 0. -/
theorem idxO : ∀ t : Fin cfg0.N, win0_6.index t (0 : Fin 2) = t.val ∧ win0_6.index t (1 : Fin 2) = 0 :=
  (by decide +kernel : ∀ t : Fin grid0.N, win0_6.index t (0 : Fin 2) = t.val ∧ win0_6.index t (1 : Fin 2) = 0)
/-- The row offset the body computes for its load of E, 400 times the grid coordinate in 32-bit words, is the number
    400 · t at each of the 25 points: nothing wraps. -/
theorem offE : ∀ t : Fin cfg0.N, k0_off1 (grid0.coords t) (0 : Fin 2) = 400 * t.val ∧ k0_off1 (grid0.coords t) (1 : Fin 2) = 0 :=
  (by decide +kernel : ∀ t : Fin grid0.N, k0_off1 (grid0.coords t) (0 : Fin 2) = 400 * t.val ∧ k0_off1 (grid0.coords t) (1 : Fin 2) = 0)

/-! ## What each input block holds, in terms of the launch contents -/

variable (m : (ℓ : Loc nD τ sig) → Buf (Elt Ideal) ℓ) (ρ : Dev nD → PrngReg)

/-- The block of A at point t, entry (p, l), is A at row 400 · t + p, column l. -/
theorem aBlk_apply (c : Dev nD) (t : Fin cfg0.N) (p : Fin 400) (l : Fin 10000) :
    (iblk m c 0 t : Vec Ideal S400x10000 .f32) (ix2 p l) = m ((c : Thread nD τ).loc main_arg1) (ix2 (rowOf (pt t) p) l) := by
  obtain ⟨e0, e1⟩ := idxA t
  show V m c main_arg1 (((cfg0.win 0).blk t).view.emb (ix2 p l)) = _
  rw [V_main_arg1]
  refine congrArg (m ((c : Thread nD τ).loc main_arg1)) (funext fun a => Fin.ext ?_)
  match a with
  | ⟨0, _⟩ => show win0_0.index t (0 : Fin 2) * 400 + 1 * p.val = 400 * t.val + p.val; omega
  | ⟨1, _⟩ => show win0_0.index t (1 : Fin 2) * 10000 + 1 * l.val = l.val; omega

/-- The block of E at every point is all of E. -/
theorem eAll_eq (c : Dev nD) (t : Fin cfg0.N) : (iblk m c 1 t : Vec Ideal S10000x128 .f32) = m ((c : Thread nD τ).loc main_arg0) := by
  obtain ⟨e0, e1⟩ := idxE t
  funext j
  show V m c main_arg0 (((cfg0.win 1).blk t).view.emb j) = _
  rw [V_main_arg0]
  refine congrArg (m ((c : Thread nD τ).loc main_arg0)) (funext fun a => Fin.ext ?_)
  match a with
  | ⟨0, _⟩ => show win0_1.index t (0 : Fin 2) * 10000 + 1 * (j 0).val = (j 0).val; omega
  | ⟨1, _⟩ => show win0_1.index t (1 : Fin 2) * 128 + 1 * (j 1).val = (j 1).val; omega

/-- The block of the self weights at every point is the whole matrix. -/
theorem ws_eq (c : Dev nD) (t : Fin cfg0.N) : (iblk m c 2 t : Vec Ideal S128x128 .f32) = m ((c : Thread nD τ).loc main_arg2) := by
  obtain ⟨e0, e1⟩ := idxWs t
  funext j
  show V m c main_arg2 (((cfg0.win 2).blk t).view.emb j) = _
  rw [V_main_arg2]
  refine congrArg (m ((c : Thread nD τ).loc main_arg2)) (funext fun a => Fin.ext ?_)
  match a with
  | ⟨0, _⟩ => show win0_2.index t (0 : Fin 2) * 128 + 1 * (j 0).val = (j 0).val; omega
  | ⟨1, _⟩ => show win0_2.index t (1 : Fin 2) * 128 + 1 * (j 1).val = (j 1).val; omega

/-- The block of the neighbour weights at every point is the whole matrix. -/
theorem wn_eq (c : Dev nD) (t : Fin cfg0.N) : (iblk m c 3 t : Vec Ideal S128x128 .f32) = m ((c : Thread nD τ).loc main_arg4) := by
  obtain ⟨e0, e1⟩ := idxWn t
  funext j
  show V m c main_arg4 (((cfg0.win 3).blk t).view.emb j) = _
  rw [V_main_arg4]
  refine congrArg (m ((c : Thread nD τ).loc main_arg4)) (funext fun a => Fin.ext ?_)
  match a with
  | ⟨0, _⟩ => show win0_3.index t (0 : Fin 2) * 128 + 1 * (j 0).val = (j 0).val; omega
  | ⟨1, _⟩ => show win0_3.index t (1 : Fin 2) * 128 + 1 * (j 1).val = (j 1).val; omega

/-- The rows of E the body loads at point t, entry (p, q), are E at row 400 · t + p, column q. -/
theorem eRows_apply (c : Dev nD) (t : Fin cfg0.N) (p : Fin 400) (q : Fin 128) :
    eRows (grid0.coords t) (m ((c : Thread nD τ).loc main_arg0)) (ix2 p q) = m ((c : Thread nD τ).loc main_arg0) (ix2 (rowOf (pt t) p) q) := by
  obtain ⟨e0, e1⟩ := offE t
  refine congrArg (m ((c : Thread nD τ).loc main_arg0)) (funext fun a => Fin.ext ?_)
  match a with
  | ⟨0, _⟩ => show k0_off1 (grid0.coords t) (0 : Fin 2) + 1 * p.val = 400 * t.val + p.val; omega
  | ⟨1, _⟩ => show k0_off1 (grid0.coords t) (1 : Fin 2) + 1 * q.val = q.val; omega

/-- Before the region the program lays the self bias out as a 1 x 128 row … -/
theorem v0_eq (c : Dev nD) :
    (V m c main_v0 : S1x128.Idx → Ideal .f32) = shapeCast S1x128 (m ((c : Thread nD τ).loc main_arg3)) shapeCasts_S128_S1x128 := by
  dsimp only [V, hostOps0]; after_results; rfl
/-- … and the neighbour bias likewise. -/
theorem v1_eq (c : Dev nD) :
    (V m c main_v1 : S1x128.Idx → Ideal .f32) = shapeCast S1x128 (m ((c : Thread nD τ).loc main_arg5)) shapeCasts_S128_S1x128 := by
  dsimp only [V, hostOps0]; after_results; rfl

/-- The self-bias row the body loads reads, at (0, q), the bias's q-th entry. -/
theorem bs_apply (c : Dev nD) (t : Fin cfg0.N) (q : Fin 128) :
    (iblk m c 4 t : Vec Ideal S1x128 .f32) (ix2 0 q) = m ((c : Thread nD τ).loc main_arg3) (ix1 q) := by
  obtain ⟨e0, e1⟩ := idxBs t
  show V m c main_v0 (((cfg0.win 4).blk t).view.emb (ix2 0 q)) = _
  rw [v0_eq]
  refine shapeCast_apply _ _ _ (ix1 q) ?_
  rw [Shape.rowMajor_val_one, Shape.rowMajor_val_two]
  show q.val = (win0_4.index t (0 : Fin 2) * 1 + 1 * 0) * 128 + (win0_4.index t (1 : Fin 2) * 128 + 1 * q.val)
  omega

/-- The neighbour-bias row the body loads reads, at (0, q), the bias's q-th entry. -/
theorem bn_apply (c : Dev nD) (t : Fin cfg0.N) (q : Fin 128) :
    (iblk m c 5 t : Vec Ideal S1x128 .f32) (ix2 0 q) = m ((c : Thread nD τ).loc main_arg5) (ix1 q) := by
  obtain ⟨e0, e1⟩ := idxBn t
  show V m c main_v1 (((cfg0.win 5).blk t).view.emb (ix2 0 q)) = _
  rw [v1_eq]
  refine shapeCast_apply _ _ _ (ix1 q) ?_
  rw [Shape.rowMajor_val_one, Shape.rowMajor_val_two]
  show q.val = (win0_5.index t (0 : Fin 2) * 1 + 1 * 0) * 128 + (win0_5.index t (1 : Fin 2) * 128 + 1 * q.val)
  omega

/-! ## The result array -/

/-- The layer function of the six arguments as launched: what the result array ends holding. -/
abbrev outArr (c : Dev nD) : Vec Ideal S10000x128 .f32 :=
  G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))

/-- The block the body stores at point t is the layer's output on rows 400 · t … 400 · t + 399. -/
theorem block_eq (c : Dev nD) (t : Fin cfg0.N) :
    blockOut (iblk m c 0 t : Vec Ideal S400x10000 .f32) (m ((c : Thread nD τ).loc main_arg0)) (eRows (grid0.coords t) (m ((c : Thread nD τ).loc main_arg0)))
        (m ((c : Thread nD τ).loc main_arg2)) (m ((c : Thread nD τ).loc main_arg4)) (iblk m c 4 t : Vec Ideal S1x128 .f32) (iblk m c 5 t : Vec Ideal S1x128 .f32)
      = fun j : S400x128.Idx => outArr m c (ix2 (rowOf (pt t) (j 0)) (j 1)) := by
  funext j
  obtain ⟨p, q, rfl⟩ : ∃ (p : Fin 400) (q : Fin 128), j = ix2 p q := ⟨j 0, j 1, eq_ix2 j⟩
  exact blockOut_eq_G (pt t) (m ((c : Thread nD τ).loc main_arg0)) (m ((c : Thread nD τ).loc main_arg1)) (m ((c : Thread nD τ).loc main_arg2)) (m ((c : Thread nD τ).loc main_arg4))
    (m ((c : Thread nD τ).loc main_arg3)) (m ((c : Thread nD τ).loc main_arg5)) (iblk m c 0 t : Vec Ideal S400x10000 .f32)
    (eRows (grid0.coords t) (m ((c : Thread nD τ).loc main_arg0))) (iblk m c 4 t : Vec Ideal S1x128 .f32) (iblk m c 5 t : Vec Ideal S1x128 .f32)
    (aBlk_apply m c t) (eRows_apply m c t) (bs_apply m c t) (bn_apply m c t) p q

/-- WHAT POINT t WRITES BACK is block t of the layer function. -/
theorem flushed_eq (c : Dev nD) (t : Fin cfg0.N) :
    (dats m 0 c).flushed 6 t = ((cfg0.win 6).blk t).view.read (Elt Ideal) (outArr m c) := by
  rw [flushed6_A, out_A, Payload.pay_eq, eAll_eq, ws_eq, wn_eq]
  obtain ⟨e0, e1⟩ := idxO t
  funext j
  refine (congrFun (block_eq m c t) _).trans ?_
  show outArr m c _ = outArr m c (((cfg0.win 6).blk t).view.emb j)
  refine congrArg (outArr m c) (funext fun a => Fin.ext ?_)
  match a with
  | ⟨0, _⟩ => show 400 * t.val + (j 0).val = win0_6.index t (0 : Fin 2) * 400 + 1 * (j 0).val; omega
  | ⟨1, _⟩ => show (j 1).val = win0_6.index t (1 : Fin 2) * 128 + 1 * (j 1).val; omega

/-- An index of the result array is in point t's block iff each coordinate is in the block's range on its axis. -/
theorem mem_blk (t : Fin cfg0.N) (i : S10000x128.Idx) :
    i ∈ ((cfg0.win 6).blk t).view.set ↔ ∀ a : Fin 2, win0_6.index t a * S400x128.size a ≤ (i a).val
      ∧ (i a).val < win0_6.index t a * S400x128.size a + S400x128.size a := by
  show i ∈ ((View.whole main_v2).slice (win0_6.rect t)).set ↔ _
  rw [View.set_slice_whole, Rect.mem_set_unit]
  exact Iff.rfl

/-- Every entry of the result array is in the block of the point its row falls in: row r in point r / 400. -/
theorem cover (i : S10000x128.Idx) : ∃ t : Fin cfg0.N, (cfg0.win 6).flush t = true ∧ i ∈ ((cfg0.win 6).blk t).view.set := by
  have hi0 : (i 0).val < 10000 := (i 0).isLt
  have hi1 : (i 1).val < 128 := (i 1).isLt
  have hN : cfg0.N = 25 := N_0
  refine ⟨⟨(i 0).val / 400, by omega⟩, flush0_6 _, ?_⟩
  rw [mem_blk]
  obtain ⟨e0, e1⟩ := idxO ⟨(i 0).val / 400, by omega⟩
  intro a
  match a with
  | ⟨0, _⟩ =>
    show win0_6.index ⟨(i 0).val / 400, _⟩ (0 : Fin 2) * 400 ≤ (i 0).val
      ∧ (i 0).val < win0_6.index ⟨(i 0).val / 400, _⟩ (0 : Fin 2) * 400 + 400
    rw [e0]; dsimp only; omega
  | ⟨1, _⟩ =>
    show win0_6.index ⟨(i 0).val / 400, _⟩ (1 : Fin 2) * 128 ≤ (i 1).val
      ∧ (i 1).val < win0_6.index ⟨(i 0).val / 400, _⟩ (1 : Fin 2) * 128 + 128
    rw [e1]; omega

/-- THE RESULT ARRAY after the run is the layer function of the arguments. -/
theorem final (c : Dev nD) : (dats m 0 c).arrAt 6 cfg0.N = outArr m c :=
  (dats m 0 c).arrAt_eq_of_cover 6 (outArr m c) (fun t _ => flushed_eq m c t) cover

/-- The kernel's run, read: every execution ends with the result array at the layer function of the launch contents of
    the six arguments, and those unchanged. -/
theorem run : θ_run defs (onTc (τ := τ) (main (F := Ideal))) ⟨m, fun _ => 0, ρ⟩ fun r => ∀ c : Dev nD,
      r.2.mem ((c : Thread nD τ).loc main_v2) = outArr m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final m c), (h c).2⟩) (run_blocks m ρ)

end Cert.KernelIdeal.Blocks

end
-- ==== Proof.RefRun.lean ====
/- The reference program as one straight line of twenty host operations — the thirteen of its entry function, then the
   six of the leaky-rectifier function it calls and the one select of the function that one calls, each written where it
   is called, over the buffers that call was given — and its run: every execution ends with the result array at ONE term
   of the six argument arrays, the arguments unchanged.

   The term: with s = E · Wsᵀ + bs (the bias broadcast along the rows), n = (A · E) · Wnᵀ + bn and x = s + n, the result
   is x where x ≥ 0 and c · x elsewhere, c the single-precision word 0x3C23D70A. -/
import proofs.«165966_g25280177504545_cont_sun_m_587_10_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The sum the rectifier is applied to: (E · Wsᵀ + bs) + ((A · E) · Wnᵀ + bn), each bias a row repeated down the
    10000 rows. -/
def sumTerm (E : (⟨S10000x128, .f32⟩ : BufTy).Contents (Elt F)) (A : (⟨S10000x10000, .f32⟩ : BufTy).Contents (Elt F)) (Ws : (⟨S128x128, .f32⟩ : BufTy).Contents (Elt F)) (bs : (⟨S128, .f32⟩ : BufTy).Contents (Elt F)) (Wn : (⟨S128x128, .f32⟩ : BufTy).Contents (Elt F)) (bn : (⟨S128, .f32⟩ : BufTy).Contents (Elt F)) : (⟨S10000x128, .f32⟩ : BufTy).Contents (Elt F) :=
  addf
    (addf (Host.dotGeneral dot_S10000x128_S128x128_S10000x128_1_0_0_1_n_n none E (transpose S128x128 [1, 0] Ws transposes_S128x128_S128x128_1_0))
      (broadcastInDim S10000x128 ![0, 1] bcast_S1x128_S10000x128_0_1 (broadcastInDim S1x128 ![1] bcast_S128_S1x128_1 bs)))
    (addf (Host.dotGeneral dot_S10000x128_S128x128_S10000x128_1_0_0_1_n_n none
        (Host.dotGeneral dot_S10000x10000_S10000x128_S10000x128_1_0_0_1_n_n none A E)
        (transpose S128x128 [1, 0] Wn transposes_S128x128_S128x128_1_0))
      (broadcastInDim S10000x128 ![0, 1] bcast_S1x128_S10000x128_0_1 (broadcastInDim S1x128 ![1] bcast_S128_S1x128_1 bn)))

/-- The leaky rectifier of an array: x where x ≥ 0, the slope word times x elsewhere. -/
def leaky (x : (⟨S10000x128, .f32⟩ : BufTy).Contents (Elt F)) : (⟨S10000x128, .f32⟩ : BufTy).Contents (Elt F) :=
  select (cmpf .oge x (broadcastInDim S10000x128 ![] bcast_S_S10000x128 (constant S_ .f32 0x00000000#32))) x
    (mulf (broadcastInDim S10000x128 ![] bcast_S_S10000x128 (id (constant S_ .f32 0x3C23D70A#32))) x)

/-- The reference's result as one term of its six arguments. -/
def refTerm (E : (⟨S10000x128, .f32⟩ : BufTy).Contents (Elt F)) (A : (⟨S10000x10000, .f32⟩ : BufTy).Contents (Elt F)) (Ws : (⟨S128x128, .f32⟩ : BufTy).Contents (Elt F)) (bs : (⟨S128, .f32⟩ : BufTy).Contents (Elt F)) (Wn : (⟨S128x128, .f32⟩ : BufTy).Contents (Elt F)) (bn : (⟨S128, .f32⟩ : BufTy).Contents (Elt F)) : (⟨S10000x128, .f32⟩ : BufTy).Contents (Elt F) :=
  leaky (sumTerm E A Ws bs Wn bn)

/-- The program's twenty operations, in order: the calls written out at their call sites. -/
abbrev ops : List (HloOp τ sig (Elt F)) :=
  [ unary main_arg2 main_v0 ((transpose S128x128 [1, 0] · transposes_S128x128_S128x128_1_0) : (⟨S128x128, .f32⟩ : BufTy).Contents (Elt F) → (⟨S128x128, .f32⟩ : BufTy).Contents (Elt F)),
    binary main_arg0 main_v0 main_v1 ((fun l r => Host.dotGeneral dot_S10000x128_S128x128_S10000x128_1_0_0_1_n_n none l r) : (⟨S10000x128, .f32⟩ : BufTy).Contents (Elt F) → (⟨S128x128, .f32⟩ : BufTy).Contents (Elt F) → (⟨S10000x128, .f32⟩ : BufTy).Contents (Elt F)),
    unary main_arg3 main_v2 (broadcastInDim S1x128 ![1] bcast_S128_S1x128_1 : (⟨S128, .f32⟩ : BufTy).Contents (Elt F) → (⟨S1x128, .f32⟩ : BufTy).Contents (Elt F)),
    unary main_v2 main_v3 (broadcastInDim S10000x128 ![0, 1] bcast_S1x128_S10000x128_0_1 : (⟨S1x128, .f32⟩ : BufTy).Contents (Elt F) → (⟨S10000x128, .f32⟩ : BufTy).Contents (Elt F)),
    binary main_v1 main_v3 main_v4 (addf : (⟨S10000x128, .f32⟩ : BufTy).Contents (Elt F) → (⟨S10000x128, .f32⟩ : BufTy).Contents (Elt F) → (⟨S10000x128, .f32⟩ : BufTy).Contents (Elt F)),
    binary main_arg1 main_arg0 main_v5 ((fun l r => Host.dotGeneral dot_S10000x10000_S10000x128_S10000x128_1_0_0_1_n_n none l r) : (⟨S10000x10000, .f32⟩ : BufTy).Contents (Elt F) → (⟨S10000x128, .f32⟩ : BufTy).Contents (Elt F) → (⟨S10000x128, .f32⟩ : BufTy).Contents (Elt F)),
    unary main_arg4 main_v6 ((transpose S128x128 [1, 0] · transposes_S128x128_S128x128_1_0) : (⟨S128x128, .f32⟩ : BufTy).Contents (Elt F) → (⟨S128x128, .f32⟩ : BufTy).Contents (Elt F)),
    binary main_v5 main_v6 main_v7 ((fun l r => Host.dotGeneral dot_S10000x128_S128x128_S10000x128_1_0_0_1_n_n none l r) : (⟨S10000x128, .f32⟩ : BufTy).Contents (Elt F) → (⟨S128x128, .f32⟩ : BufTy).Contents (Elt F) → (⟨S10000x128, .f32⟩ : BufTy).Contents (Elt F)),
    unary main_arg5 main_v8 (broadcastInDim S1x128 ![1] bcast_S128_S1x128_1 : (⟨S128, .f32⟩ : BufTy).Contents (Elt F) → (⟨S1x128, .f32⟩ : BufTy).Contents (Elt F)),
    unary main_v8 main_v9 (broadcastInDim S10000x128 ![0, 1] bcast_S1x128_S10000x128_0_1 : (⟨S1x128, .f32⟩ : BufTy).Contents (Elt F) → (⟨S10000x128, .f32⟩ : BufTy).Contents (Elt F)),
    binary main_v7 main_v9 main_v10 (addf : (⟨S10000x128, .f32⟩ : BufTy).Contents (Elt F) → (⟨S10000x128, .f32⟩ : BufTy).Contents (Elt F) → (⟨S10000x128, .f32⟩ : BufTy).Contents (Elt F)),
    binary main_v4 main_v10 main_v11 (addf : (⟨S10000x128, .f32⟩ : BufTy).Contents (Elt F) → (⟨S10000x128, .f32⟩ : BufTy).Contents (Elt F) → (⟨S10000x128, .f32⟩ : BufTy).Contents (Elt F)),
    nullary main_cst (constant S_ .f32 0x3C23D70A#32),
    TRef.nullary main_call0.cst (constant S_ .f32 0x00000000#32),
    TRef.unary main_call0.cst main_call0.v0 (broadcastInDim S10000x128 ![] bcast_S_S10000x128),
    TRef.binary (.of main_v11) main_call0.v0 main_call0.v1 (cmpf .oge),
    TRef.unary (.of main_cst) main_call0.v2 id,
    TRef.unary main_call0.v2 main_call0.v3 (broadcastInDim S10000x128 ![] bcast_S_S10000x128),
    TRef.binary main_call0.v3 (.of main_v11) main_call0.v4 mulf,
    TRef.ternary main_call0.v1 (.of main_v11) main_call0.v4 main_call0.call0.v0 select ]

set_option maxRecDepth 4096 in
/-- The entry function is that straight line: the two called functions opened at their calls, the sequencing
    reassociated. -/
theorem main_eq (c : Dev nD) : main (F := F) c = seq ops := by
  simp only [main, fn_leaky_relu.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨unary_bufs_sub .., binary_bufs_sub .., unary_bufs_sub .., unary_bufs_sub .., binary_bufs_sub .., binary_bufs_sub ..,
    unary_bufs_sub .., binary_bufs_sub .., unary_bufs_sub .., unary_bufs_sub .., binary_bufs_sub .., binary_bufs_sub ..,
    nullary_bufs_sub .., nullary_bufs_sub .., unary_bufs_sub .., binary_bufs_sub .., unary_bufs_sub .., unary_bufs_sub ..,
    binary_bufs_sub .., ternary_bufs_sub ..⟩

/-- The operations' fold read at the result buffer is the reference's term of the argument buffers. -/
theorem out_eq (V : Valuation τ sig (Elt F)) :
    after ops V (main_v12 : DevRef τ sig)
      = refTerm (V (main_arg0 : DevRef τ sig)) (V (main_arg1 : DevRef τ sig)) (V (main_arg2 : DevRef τ sig))
          (V (main_arg3 : DevRef τ sig)) (V (main_arg4 : DevRef τ sig)) (V (main_arg5 : DevRef τ sig)) := by
  simp only [after_cons, after_nil]
  rfl

theorem arg0_eq (V : Valuation τ sig (Elt F)) : after ops V (main_arg0 : DevRef τ sig) = V (main_arg0 : DevRef τ sig) := by
  simp only [after_cons, after_nil]
  rfl
theorem arg1_eq (V : Valuation τ sig (Elt F)) : after ops V (main_arg1 : DevRef τ sig) = V (main_arg1 : DevRef τ sig) := by
  simp only [after_cons, after_nil]
  rfl
theorem arg2_eq (V : Valuation τ sig (Elt F)) : after ops V (main_arg2 : DevRef τ sig) = V (main_arg2 : DevRef τ sig) := by
  simp only [after_cons, after_nil]
  rfl
theorem arg3_eq (V : Valuation τ sig (Elt F)) : after ops V (main_arg3 : DevRef τ sig) = V (main_arg3 : DevRef τ sig) := by
  simp only [after_cons, after_nil]
  rfl
theorem arg4_eq (V : Valuation τ sig (Elt F)) : after ops V (main_arg4 : DevRef τ sig) = V (main_arg4 : DevRef τ sig) := by
  simp only [after_cons, after_nil]
  rfl
theorem arg5_eq (V : Valuation τ sig (Elt F)) : after ops V (main_arg5 : DevRef τ sig) = V (main_arg5 : DevRef τ sig) := by
  simp only [after_cons, after_nil]
  rfl

/-- On every device, for any float values, from any memory with zero counters: every weakly fair execution of the
    reference terminates with its result array at `refTerm` of the launch contents of the six arguments, and those
    unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v12)
          = refTerm (m ((c.tc : Thread nD τ).loc main_arg0)) (m ((c.tc : Thread nD τ).loc main_arg1))
              (m ((c.tc : Thread nD τ).loc main_arg2)) (m ((c.tc : Thread nD τ).loc main_arg3))
              (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c main_v12).trans (out_eq _),
      (h c main_arg0).trans (arg0_eq _), (h c main_arg1).trans (arg1_eq _), (h c main_arg2).trans (arg2_eq _),
      (h c main_arg3).trans (arg3_eq _), (h c main_arg4).trans (arg4_eq _), (h c main_arg5).trans (arg5_eq _)⟩)
    (run_seq scopedRefs_eq scopedSems_eq defs main (fun _ => ops) main_eq (fun _ => ops_sub) m ρ)

end Cert.ReferenceIdeal.RefRun

end
-- ==== Proof.RefValue.lean ====
/- The reference's result term, read entry by entry at the extended reals, is the layer function.

   Each host product over a rows-by-columns record is the textbook matrix product; the right factor being a transposed
   weight matrix, the product at (r, q) runs over E(r, c) · W(q, c). A bias of 128 entries laid out as a 1 x 128 row and
   repeated down the 10000 rows reads its q-th entry at (r, q). The reference adds each bias to its own transform and
   then the two sums; regrouping the four terms gives the layer's grouping. -/
import proofs.«165966_g25280177504545_cont_sun_m_587_10_alg».proof.Proof.RefRun
import proofs.«165966_g25280177504545_cont_sun_m_587_10_alg».proof.Proof.LayerSpec
import Idealize.ShloMosaic.Lib.Pipeline.Value
import Idealize.ShloMosaic.Lib.ValueLayout

noncomputable section

open scoped BigOperators

namespace Cert.ReferenceIdeal.RefValue

open Cert.ReferenceIdeal Cert.ReferenceIdeal.Gen Cert.ReferenceIdeal.RefRun
open Idealize.ShloMosaic Idealize.ShloMosaic.ValueIdx Cert.Layer Cert.MatProd

/-- A 128-entry bias, laid out as a row and repeated down the rows, reads its q-th entry at (r, q). -/
theorem bias_apply (b : FVec Ideal S128 .f32) (r : Fin 10000) (q : Fin 128) :
    broadcastInDim S10000x128 ![0, 1] bcast_S1x128_S10000x128_0_1 (broadcastInDim S1x128 ![1] bcast_S128_S1x128_1 b) (ix2 r q)
      = b (ix1 q) := by
  rw [broadcastInDim_apply _ _ _ (ix2 r q) (ix2 (0 : Fin 1) q) (fun a => match a with | ⟨0, _⟩ => rfl | ⟨1, _⟩ => rfl)]
  exact broadcastInDim_apply _ _ _ (ix2 (0 : Fin 1) q) (ix1 q) (fun a => match a with | ⟨0, _⟩ => rfl)

/-- The host product of a 10000 x 128 matrix with a transposed 128 x 128 weight matrix is the product with the
    transpose: at (r, q) the sum over c of X(r, c) · W(q, c). -/
theorem dotT_eq (X : FVec Ideal S10000x128 .f32) (W : FVec Ideal S128x128 .f32) :
    Host.dotGeneral dot_S10000x128_S128x128_S10000x128_1_0_0_1_n_n none X
        (transpose S128x128 [1, 0] W transposes_S128x128_S128x128_1_0) = matProdT X W := by
  refine (hostDot_eq dot_S10000x128_S128x128_S10000x128_1_0_0_1_n_n.wf none X _).trans ?_
  funext i
  obtain ⟨r, q, rfl⟩ : ∃ (r : Fin 10000) (q : Fin 128), i = ix2 r q := ⟨i 0, i 1, eq_ix2 i⟩
  rw [matProd_ix2, matProdT_ix2]
  refine Finset.sum_congr rfl fun c _ => ?_
  rw [transpose_ix2_apply]

/-- The host product A · E is the matrix product. -/
theorem dotAE_eq (A : FVec Ideal S10000x10000 .f32) (E : FVec Ideal S10000x128 .f32) :
    Host.dotGeneral dot_S10000x10000_S10000x128_S10000x128_1_0_0_1_n_n none A E = matProd A E :=
  hostDot_eq dot_S10000x10000_S10000x128_S10000x128_1_0_0_1_n_n.wf none A E

/-- The reference's rectifier, entry by entry, is the scalar rectifier. -/
theorem leaky_apply (x : FVec Ideal S10000x128 .f32) (i : S10000x128.Idx) : leaky (F := Ideal) x i = lrelu (x i) := rfl

/-- THE REFERENCE IS THE LAYER: its result term of the six arguments is `G` of them. -/
theorem refTerm_eq_G (E : FVec Ideal S10000x128 .f32) (A : FVec Ideal S10000x10000 .f32) (Ws : FVec Ideal S128x128 .f32)
    (bs : FVec Ideal S128 .f32) (Wn : FVec Ideal S128x128 .f32) (bn : FVec Ideal S128 .f32) :
    refTerm (F := Ideal) E A Ws bs Wn bn = G E A Ws bs Wn bn := by
  funext i
  obtain ⟨r, q, rfl⟩ : ∃ (r : Fin 10000) (q : Fin 128), i = ix2 r q := ⟨i 0, i 1, eq_ix2 i⟩
  unfold refTerm
  rw [leaky_apply]
  unfold sumTerm
  rw [addf_apply, addf_apply, addf_apply, bias_apply, bias_apply, dotT_eq, dotAE_eq, dotT_eq, preAct_regroup]
  rfl

end Cert.ReferenceIdeal.RefValue

end
-- ==== Proof.lean ====
/- A graph layer's kernel against its reference, over the extended reals.

   Both programs compute, for an entity matrix E, an adjacency matrix A, weights Ws, Wn and biases bs, bn, the leaky
   rectifier of E · Wsᵀ + (A · E) · Wnᵀ + bs + bn. The kernel does it in 25 blocks of 400 rows, each block from the
   matching rows of A and of E, adding the two transforms first and the two biases together; the reference does it on whole
   arrays, adding each bias to its own transform first. Entry by entry the two are the same sums of the same products,
   and the four terms under the rectifier are only grouped differently, which is no difference in a commutative monoid:
   no finiteness of the inputs is used.

   The kernel's result array is the layer function by KernelBlocks (over the generated frame and value leg); the
   reference's result is the layer function by RefRun (its run as a straight line) and RefValue (that line's term read
   entry by entry). The rewriting of the kernel into its idealized form changed no operation. -/
import proofs.«165966_g25280177504545_cont_sun_m_587_10_alg».proof.Defs
import proofs.«165966_g25280177504545_cont_sun_m_587_10_alg».proof.Proof.Gen.Kernel
import proofs.«165966_g25280177504545_cont_sun_m_587_10_alg».proof.Proof.Gen.Kernel.Skeleton
import proofs.«165966_g25280177504545_cont_sun_m_587_10_alg».proof.Proof.Gen.Kernel.Launch
import proofs.«165966_g25280177504545_cont_sun_m_587_10_alg».proof.Proof.Gen.Kernel.Points
import proofs.«165966_g25280177504545_cont_sun_m_587_10_alg».proof.Proof.Gen.Kernel.Frame
import proofs.«165966_g25280177504545_cont_sun_m_587_10_alg».proof.Proof.Gen.KernelIdeal
import proofs.«165966_g25280177504545_cont_sun_m_587_10_alg».proof.Proof.Gen.KernelIdeal.Skeleton
import proofs.«165966_g25280177504545_cont_sun_m_587_10_alg».proof.Proof.Gen.KernelIdeal.Launch
import proofs.«165966_g25280177504545_cont_sun_m_587_10_alg».proof.Proof.Gen.KernelIdeal.Points
import proofs.«165966_g25280177504545_cont_sun_m_587_10_alg».proof.Proof.Gen.KernelIdeal.Frame
import proofs.«165966_g25280177504545_cont_sun_m_587_10_alg».proof.Proof.Gen.ReferenceIdeal
import proofs.«165966_g25280177504545_cont_sun_m_587_10_alg».proof.Proof.Gen.Pre_finite_inputs
import proofs.«165966_g25280177504545_cont_sun_m_587_10_alg».proof.Proof.KernelBlocks
import proofs.«165966_g25280177504545_cont_sun_m_587_10_alg».proof.Proof.RefValue
import Idealize.ShloMosaic.Adequacy
import Idealize.ShloMosaic.Init

noncomputable section

namespace Cert.Proof

open Idealize.ShloMosaic Idealize.ShloMosaic.TcCoe Idealize.SL.Sem

/-- The kernel as printed runs to the end without a fault and leaves its arguments as they were. -/
theorem frame_k : Cert.frame_Kernel := fun m ρ _ => Cert.Kernel.Gen.frame m ρ

/-- So does its idealized form. -/
theorem frame_ki : Cert.frame_KernelIdeal := fun m ρ _ => Cert.KernelIdeal.Gen.frame m ρ

/-- So does the reference: its run, with what it says of the result dropped. -/
theorem frame_ri : Cert.frame_ReferenceIdeal := fun m ρ _ =>
  (θ_run Cert.ReferenceIdeal.defs _ _).mono (fun _ h c => (h c).2) (Cert.ReferenceIdeal.RefRun.run (F := Ideal) m ρ)

/-- No operation of the kernel was rewritten: nothing to preserve. -/
theorem preserves : Cert.preserves_Kernel_KernelIdeal := trivial

/-- From memories that agree on the six arguments both programs end with the same result array: the layer function of
    those arguments. -/
theorem algebraic : Cert.algebraic_KernelIdeal_ReferenceIdeal := by
  intro m ρ m' ρ' _ hagree
  refine ⟨fun c => Cert.KernelIdeal.Blocks.outArr m c, Cert.KernelIdeal.Blocks.run m ρ, ?_⟩
  refine (θ_run Cert.ReferenceIdeal.defs _ _).mono (fun _ h c => ⟨(h c).1.trans ?_, (h c).2⟩)
    (Cert.ReferenceIdeal.RefRun.run (F := Ideal) m' ρ')
  rw [(hagree c).1, (hagree c).2.1, (hagree c).2.2.1, (hagree c).2.2.2.1, (hagree c).2.2.2.2.1, (hagree c).2.2.2.2.2]
  exact Cert.ReferenceIdeal.RefValue.refTerm_eq_G _ _ _ _ _ _

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
